-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x1024 : Shape := ⟨2, ![16384, 1024]⟩
abbrev S2048x1024 : Shape := ⟨2, ![2048, 1024]⟩
abbrev S1024 : Shape := ⟨1, ![1024]⟩
abbrev S1024x1024 : Shape := ⟨2, ![1024, 1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S2048x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S2048x1024 .f32 := Host.absf main_arg12
  let main_cst_22 : FVec F S_ .f32 := constant S_ .f32 0x7F800000#32
  let main_v60 : FVec F S2048x1024 .f32 := broadcastInDim S2048x1024 ![] bcast_S_S2048x1024 main_cst_22
  let main_v61 : IVec S2048x1024 1 := cmpf .olt main_v59 main_v60
  let main_c_23 : IVec S_ 1 := constantI S_ 1 1#1
  let main_v62 : IVec S_ 1 := (fun x v => Host.reduce IntOp.andi x v reducesTo_S2048x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S2048x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S2048x1024 .f32) (main_arg5 : FVec F S1024 .f32) (main_arg6 : FVec F S2048x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S2048x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x2048 .f32) (main_arg1 : FVec F S16384x1024 .f32) (main_arg2 : FVec F S2048x1024 .f32) (main_arg3 : FVec F S1024 .f32) (main_arg4 : FVec F S2048x1024 .f32) (main_arg5 : FVec F S1024 .f32) (main_arg6 : FVec F S2048x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S2048x1024 .f32) (main_arg13 : FVec F S1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x2048 : Shape := ⟨2, ![16384, 2048]⟩
abbrev S16384x1024 : Shape := ⟨2, ![16384, 1024]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S128x2048 : Shape := ⟨2, ![128, 2048]⟩
abbrev S128x1024 : Shape := ⟨2, ![128, 1024]⟩

abbrev nBuf : Space → Nat
  | .hbm => 39
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2048x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S16384x1024, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S128x1024, .f32⟩
  | .local _ .vmem, ⟨21, _⟩ => ⟨S128x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S2048x1024_S1024x1024_0_0 : S2048x1024.Slices ![0, 0] S1024x1024
  slices_S2048x1024_S1024x1024_1024_0 : S2048x1024.Slices ![1024, 0] S1024x1024
  bitsLt_bf16_f32 : FTy.bits .bf16 < FTy.bits .f32
  shapeCasts_S1024_S1x1024 : S1024.ShapeCasts S1x1024
  inb_S128x2048_S128x2048_0_0 : ∀ a, (![0, 0] : Fin 2 → Nat) a + S128x2048.size a ≤ S128x2048.size a
  h_S128x2048 : 0 < S128x2048.numel
  slices_S128x2048_o0_0_S128x1024 : S128x2048.Slices ![0, 0] S128x1024
  slices_S128x2048_o0_1024_S128x1024 : S128x2048.Slices ![0, 1024] S128x1024
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x1024.size a ≤ S1024x1024.size a
  hwx0_15 : ∀ i : grid0.Coords, EltTy.bits .bf16 = 32 ∨ (Rect.block (s := S1024x1024) S1024x1024.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024x1024.size a ≤ S1024x1024.size a
  hwx0_16 : ∀ i : grid0.Coords, EltTy.bits .bf16 = 32 ∨ (Rect.block (s := S1024x1024) S1024x1024.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128x1024.size a ≤ S16384x1024.size a
  hwx0_18 : ∀ i : grid0.Coords, EltTy.bits .f32 = 32 ∨ (Rect.block (s := S16384x1024) S128x1024.size (cc0_transform_18 i) (hinb0_18 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1024x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17) S1024x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v23) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v24) S128x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384x1024 : Shape := ⟨2, ![16384, 1024]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2048x1024, .f32⟩
  | .hbm, ⟨13, _⟩ => ⟨S1024, .f32⟩
  | .hbm, ⟨14, _⟩ => ⟨S16384x1024, .f32⟩
  | .hbm, ⟨15, _⟩ => ⟨S16384x1024, .f32⟩
  | .hbm, ⟨16, _⟩ => ⟨S16384x2048, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x2048, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S16384x2048, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  slices_S16384x2048_S16384x1024_0_0 : S16384x2048.Slices ![0, 0] S16384x1024
  slices_S16384x2048_S16384x1024_0_1024 : S16384x2048.Slices ![0, 1024] S16384x1024
  concatenates_S16384x1024_S16384x1024_S16384x2048_d1 : Shape.Concatenates [S16384x1024, S16384x1024] S16384x2048 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x2048_S2048x1024_S16384x1024_1_0_0_1_n_n_wf : DotDims.WF S16384x2048 S2048x1024 S16384x1024 [1] [0] [0] [1] [] []
  dot_S16384x1024_S1024x1024_S16384x1024_1_0_0_1_n_n_wf : DotDims.WF S16384x1024 S1024x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Cell.lean ====
/-
  One row of the gated recurrent cell, as a function on the extended reals.

  For one batch row the cell takes the semantic half x and the neighbour half nb of the input row, the state row s,
  and the weight matrices already cut where the concatenated operands meet: a product of a concatenated row [a, b]
  with a matrix W of 2048 rows is the product of a with W's upper 1024 rows plus the product of b with its lower 1024
  rows. With

    r = σ(x·Wr↑ + s·Wr↓ + br)         u = σ(x·Wu↑ + s·Wu↓ + bu)
    c = tanh(x·Wc↑ + (r ⊙ s)·Wc↓ + bc)
    e = max(x·W1 + b1, 0)             n = max(nb·W2 + b2, 0)
    g = σ(e·Wg↑ + n·Wg↓ + bg)

  the new state at column q is u_q · s_q + ((1 − u_q) · c_q) · g_q. Every sum is a finite sum in the commutative monoid
  of extended reals under addition, so cutting a sum over 2048 terms into two sums over 1024 terms needs no finiteness.
-/
import Idealize.ShloMosaic.PureOps.Ideal
import Idealize.ShloMosaic.PureOps.IdealRules
import Idealize.ShloMosaic.Lib.ValueIdx

noncomputable section

open scoped BigOperators

namespace Cert.Gru

open Idealize.ShloMosaic

/-- A row times a matrix, at column j. -/
def dot (a : Fin 1024 → EReal) (W : Fin 1024 → Fin 1024 → EReal) (j : Fin 1024) : EReal := ∑ k : Fin 1024, a k * W k j

/-- A gate's pre-activation: two row-matrix products and a bias. -/
def pre2 (a b : Fin 1024 → EReal) (Wa Wb : Fin 1024 → Fin 1024 → EReal) (bias : Fin 1024 → EReal) (j : Fin 1024) : EReal :=
  (dot a Wa j + dot b Wb j) + bias j

/-- The reset-scaled state r ⊙ s. -/
def resetState (x s : Fin 1024 → EReal) (wrx wrh : Fin 1024 → Fin 1024 → EReal) (br : Fin 1024 → EReal) (j : Fin 1024) : EReal :=
  Ideal.logistic (pre2 x s wrx wrh br j) * s j

/-- A rectified projection max(a·W + b, 0). -/
def relu1 (a : Fin 1024 → EReal) (W : Fin 1024 → Fin 1024 → EReal) (bias : Fin 1024 → EReal) (j : Fin 1024) : EReal :=
  max (dot a W j + bias j) 0

/-- The new state of one batch row at column q. -/
def cell (x nb s : Fin 1024 → EReal)
    (wrx wrh : Fin 1024 → Fin 1024 → EReal) (br : Fin 1024 → EReal)
    (wux wuh : Fin 1024 → Fin 1024 → EReal) (bu : Fin 1024 → EReal)
    (wcx wch : Fin 1024 → Fin 1024 → EReal) (bc : Fin 1024 → EReal)
    (w1 : Fin 1024 → Fin 1024 → EReal) (b1 : Fin 1024 → EReal)
    (w2 : Fin 1024 → Fin 1024 → EReal) (b2 : Fin 1024 → EReal)
    (wgs wgn : Fin 1024 → Fin 1024 → EReal) (bg : Fin 1024 → EReal) (q : Fin 1024) : EReal :=
  Ideal.logistic (pre2 x s wux wuh bu q) * s q
    + ((1 - Ideal.logistic (pre2 x s wux wuh bu q))
        * Ideal.tanh (pre2 x (resetState x s wrx wrh br) wcx wch bc q))
      * Ideal.logistic (pre2 (relu1 x w1 b1) (relu1 nb w2 b2) wgs wgn bg q)

/-- The upper half of the column range of a 2048-wide axis. -/
abbrev lo (k : Fin 1024) : Fin 2048 := ⟨k.val, by have := k.isLt; omega⟩

/-- The lower half of the column range of a 2048-wide axis. -/
abbrev hi (k : Fin 1024) : Fin 2048 := ⟨1024 + k.val, by have := k.isLt; omega⟩

/-- THE RESULT ARRAY as one function of the fourteen argument arrays: at (b, q), the cell of batch row b at column q,
    the three 2048-row weight matrices cut into their upper and lower 1024 rows. -/
def G (X : (⟨2, ![16384, 2048]⟩ : Shape).Idx → EReal) (S : (⟨2, ![16384, 1024]⟩ : Shape).Idx → EReal)
    (Wr : (⟨2, ![2048, 1024]⟩ : Shape).Idx → EReal) (br : (⟨1, ![1024]⟩ : Shape).Idx → EReal)
    (Wu : (⟨2, ![2048, 1024]⟩ : Shape).Idx → EReal) (bu : (⟨1, ![1024]⟩ : Shape).Idx → EReal)
    (Wc : (⟨2, ![2048, 1024]⟩ : Shape).Idx → EReal) (bc : (⟨1, ![1024]⟩ : Shape).Idx → EReal)
    (W1 : (⟨2, ![1024, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (Wg : (⟨2, ![2048, 1024]⟩ : Shape).Idx → EReal) (bg : (⟨1, ![1024]⟩ : Shape).Idx → EReal) :
    (⟨2, ![16384, 1024]⟩ : Shape).Idx → EReal := fun i =>
  cell (fun k => X (ValueIdx.ix2 (i 0) (lo k))) (fun k => X (ValueIdx.ix2 (i 0) (hi k))) (fun k => S (ValueIdx.ix2 (i 0) k))
    (fun k j => Wr (ValueIdx.ix2 (lo k) j)) (fun k j => Wr (ValueIdx.ix2 (hi k) j)) (fun j => br (ValueIdx.ix1 j))
    (fun k j => Wu (ValueIdx.ix2 (lo k) j)) (fun k j => Wu (ValueIdx.ix2 (hi k) j)) (fun j => bu (ValueIdx.ix1 j))
    (fun k j => Wc (ValueIdx.ix2 (lo k) j)) (fun k j => Wc (ValueIdx.ix2 (hi k) j)) (fun j => bc (ValueIdx.ix1 j))
    (fun k j => W1 (ValueIdx.ix2 k j)) (fun j => b1 (ValueIdx.ix1 j))
    (fun k j => W2 (ValueIdx.ix2 k j)) (fun j => b2 (ValueIdx.ix1 j))
    (fun k j => Wg (ValueIdx.ix2 (lo k) j)) (fun k j => Wg (ValueIdx.ix2 (hi k) j)) (fun j => bg (ValueIdx.ix1 j)) (i 1)

/-- A sum over 2048 terms is the sum over its first 1024 terms plus the sum over its last 1024 terms. -/
theorem sum_halves (f : Fin 2048 → EReal) : ∑ k : Fin 2048, f k = ∑ k : Fin 1024, f (lo k) + ∑ k : Fin 1024, f (hi k) := by
  have h := Fin.sum_univ_add (M := EReal) (a := 1024) (b := 1024) (fun k : Fin (1024 + 1024) => f k)
  exact h

/-- The words of f32's 0.0 and 1.0 denote 0 and 1. -/
theorem word_zero : Ideal.ofBits .f32 0x00000000#32 = (0 : EReal) := by simp [Ideal.ofBits, Ideal.ieee]

theorem word_one : Ideal.ofBits .f32 0x3F800000#32 = (1 : EReal) := IdealRules.sign_bit.ideal_onePat .f32

end Cert.Gru

end
-- ==== Proof.KerCell.lean ====
/-
  The kernel body's values at an index of the output block.

  A grid point loads a block of 128 input rows and 128 state rows, the ten weight matrices whole and the six bias rows,
  and stores one 128 × 1024 block. Read at row p and column q of that block, every matrix product of the body is a sum
  over the contracted index, every bias row is read at column q, and the slices of the input block are its first and
  last 1024 columns. So the stored value at (p, q) is the gated recurrent cell of row p of the loaded blocks at column q.
-/
import proofs.«166335_j39178691674857_1_alg».proof.Proof.Gen.KernelIdeal.Value
import proofs.«166335_j39178691674857_1_alg».proof.Proof.Cell
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Gru

/-! ## The body's matrix product at an index -/

theorem lhs_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- A product of a 128 × 1024 block with a 1024 × 1024 matrix into a zero accumulator, at (p, q): the sum over k of
    the block at (p, k) times the matrix at (k, q). -/
theorem mm (A : FVec Ideal S128x1024 .bf16) (B : FVec Ideal S1024x1024 .bf16) (p : Fin 128) (q : Fin 1024) :
    matmul dot_S128x1024_S1024x1024_S128x1024_1_0_0_1_n_n none A B (constant S128x1024 .f32 0x00000000#32) (ix2 p q)
      = ∑ k : Fin 1024, A (ix2 p k) * B (ix2 k q) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p q) ((ValueIdx.contrEquiv1 dot_S128x1024_S1024x1024_S128x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S128x1024_S1024x1024_S128x1024_1_0_0_1_n_n.rhsIdx (ix2 p q) ((ValueIdx.contrEquiv1 dot_S128x1024_S1024x1024_S128x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- The same product with the loaded matrix passed through its identity cast, as a row-matrix product of the cell. -/
theorem mm_dot (A : FVec Ideal S128x1024 .bf16) (B : Vec Ideal S1024x1024 .bf16) (p : Fin 128) (q : Fin 1024) :
    matmul dot_S128x1024_S1024x1024_S128x1024_1_0_0_1_n_n none A (shapeCast S1024x1024 B shapeCasts_S1024x1024_S1024x1024 : FVec Ideal S1024x1024 .bf16) (constant S128x1024 .f32 0x00000000#32) (ix2 p q)
      = dot (fun k => A (ix2 p k)) (fun k j => B (ix2 k j)) q := by
  rw [shapeCast_self, mm]
  rfl

/-- A bias row broadcast down the block's rows reads, at (p, q), the row at column q. -/
theorem bias_apply (v : Vec Ideal S1x1024 .f32) (p : Fin 128) (q : Fin 1024) :
    broadcastTo S128x1024 (shapeCast S1x1024 v shapeCasts_S1x1024_S1x1024) broadcasts_S1x1024_S128x1024 (ix2 p q)
      = v (ix2 (0 : Fin 1) q) := by
  rw [shapeCast_self]
  exact broadcastTo_apply v _ (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-! ## The slices of the input block -/

/-- The semantic half: the input block's first 1024 columns. -/
theorem pay2_apply (v0 : Vec Ideal S128x2048 .f32) (p : Fin 128) (k : Fin 1024) :
    k0_pay2 (F := Ideal) v0 (ix2 p k) = v0 (ix2 p (lo k)) := by
  unfold k0_pay2
  exact extractStridedSlice_apply ![0, 0] v0 slices_S128x2048_o0_0_S128x1024 (ix2 p k) (ix2 p (lo k)) (fun a => match a with
    | ⟨0, _⟩ => by show p.val = 0 + p.val; omega
    | ⟨1, _⟩ => by show k.val = 0 + k.val; omega)

/-- The neighbour half: the input block's last 1024 columns. -/
theorem pay4_apply (v0 : Vec Ideal S128x2048 .f32) (p : Fin 128) (k : Fin 1024) :
    k0_pay4 (F := Ideal) v0 (ix2 p k) = v0 (ix2 p (hi k)) := by
  unfold k0_pay4
  exact extractStridedSlice_apply ![0, 1024] v0 slices_S128x2048_o0_1024_S128x1024 (ix2 p k) (ix2 p (hi k)) (fun a => match a with
    | ⟨0, _⟩ => by show p.val = 0 + p.val; omega
    | ⟨1, _⟩ => by show 1024 + k.val = 1024 + k.val; omega)

/-! ## The body's named values at an index -/

/-- The update gate u at (p, q). -/
theorem pay5_apply (v0 : Vec Ideal S128x2048 .f32) (v3 : Vec Ideal S128x1024 .f32) (v19 v22 : Vec Ideal S1024x1024 .bf16)
    (v26 : Vec Ideal S1x1024 .f32) (p : Fin 128) (q : Fin 1024) :
    k0_pay5 (F := Ideal) v0 v3 v19 v22 v26 (ix2 p q)
      = Ideal.logistic (pre2 (fun k => v0 (ix2 p (lo k))) (fun k => v3 (ix2 p k)) (fun k j => v19 (ix2 k j)) (fun k j => v22 (ix2 k j))
          (fun j => v26 (ix2 (0 : Fin 1) j)) q) := by
  unfold k0_pay5
  show Ideal.logistic ((matmul dot_S128x1024_S1024x1024_S128x1024_1_0_0_1_n_n none (k0_pay2 v0) (shapeCast S1024x1024 v19 shapeCasts_S1024x1024_S1024x1024 : FVec Ideal S1024x1024 .bf16) (constant S128x1024 .f32 0x00000000#32) (ix2 p q)
      + matmul dot_S128x1024_S1024x1024_S128x1024_1_0_0_1_n_n none (k0_pay3 v3) (shapeCast S1024x1024 v22 shapeCasts_S1024x1024_S1024x1024 : FVec Ideal S1024x1024 .bf16) (constant S128x1024 .f32 0x00000000#32) (ix2 p q))
      + broadcastTo S128x1024 (shapeCast S1x1024 v26 shapeCasts_S1x1024_S1x1024) broadcasts_S1x1024_S128x1024 (ix2 p q)) = _
  rw [mm_dot, mm_dot, bias_apply]
  simp only [pay2_apply]
  rfl

/-- The reset-scaled state r ⊙ s at (p, q). -/
theorem pay6_apply (v0 : Vec Ideal S128x2048 .f32) (v3 : Vec Ideal S128x1024 .f32) (v7 v10 : Vec Ideal S1024x1024 .bf16)
    (v14 : Vec Ideal S1x1024 .f32) (p : Fin 128) (q : Fin 1024) :
    k0_pay6 (F := Ideal) v0 v3 v7 v10 v14 (ix2 p q)
      = resetState (fun k => v0 (ix2 p (lo k))) (fun k => v3 (ix2 p k)) (fun k j => v7 (ix2 k j)) (fun k j => v10 (ix2 k j))
          (fun j => v14 (ix2 (0 : Fin 1) j)) q := by
  unfold k0_pay6
  show Ideal.logistic ((matmul dot_S128x1024_S1024x1024_S128x1024_1_0_0_1_n_n none (k0_pay2 v0) (shapeCast S1024x1024 v7 shapeCasts_S1024x1024_S1024x1024 : FVec Ideal S1024x1024 .bf16) (constant S128x1024 .f32 0x00000000#32) (ix2 p q)
      + matmul dot_S128x1024_S1024x1024_S128x1024_1_0_0_1_n_n none (k0_pay3 v3) (shapeCast S1024x1024 v10 shapeCasts_S1024x1024_S1024x1024 : FVec Ideal S1024x1024 .bf16) (constant S128x1024 .f32 0x00000000#32) (ix2 p q))
      + broadcastTo S128x1024 (shapeCast S1x1024 v14 shapeCasts_S1x1024_S1x1024) broadcasts_S1x1024_S128x1024 (ix2 p q)) * v3 (ix2 p q) = _
  rw [mm_dot, mm_dot, bias_apply]
  simp only [pay2_apply]
  rfl

/-- The semantic half's product with the candidate's upper weights at (p, q). -/
theorem pay7_apply (v0 : Vec Ideal S128x2048 .f32) (v33 : Vec Ideal S1024x1024 .bf16) (p : Fin 128) (q : Fin 1024) :
    k0_pay7 (F := Ideal) v0 v33 (ix2 p q) = dot (fun k => v0 (ix2 p (lo k))) (fun k j => v33 (ix2 k j)) q := by
  unfold k0_pay7
  show matmul dot_S128x1024_S1024x1024_S128x1024_1_0_0_1_n_n none (k0_pay2 v0) (shapeCast S1024x1024 v33 shapeCasts_S1024x1024_S1024x1024 : FVec Ideal S1024x1024 .bf16) (constant S128x1024 .f32 0x00000000#32) (ix2 p q) = _
  rw [mm_dot]
  simp only [pay2_apply]

/-- The candidate c at (p, q), from the reset-scaled state and the semantic product as the body passes them on. -/
theorem pay8_apply (v32 : FVec Ideal S128x1024 .bf16) (v35 : FVec Ideal S128x1024 .f32) (v36 : Vec Ideal S1024x1024 .bf16)
    (v40 : Vec Ideal S1x1024 .f32) (p : Fin 128) (q : Fin 1024) :
    k0_pay8 (F := Ideal) v32 v35 v36 v40 (ix2 p q)
      = Ideal.tanh ((v35 (ix2 p q) + dot (fun k => v32 (ix2 p k)) (fun k j => v36 (ix2 k j)) q) + v40 (ix2 (0 : Fin 1) q)) := by
  unfold k0_pay8
  show Ideal.tanh ((v35 (ix2 p q)
      + matmul dot_S128x1024_S1024x1024_S128x1024_1_0_0_1_n_n none v32 (shapeCast S1024x1024 v36 shapeCasts_S1024x1024_S1024x1024 : FVec Ideal S1024x1024 .bf16) (constant S128x1024 .f32 0x00000000#32) (ix2 p q))
      + broadcastTo S128x1024 (shapeCast S1x1024 v40 shapeCasts_S1x1024_S1x1024) broadcasts_S1x1024_S128x1024 (ix2 p q)) = _
  rw [mm_dot, bias_apply]

/-- A rectified projection of the body at (p, q). -/
theorem relu_apply (a : FVec Ideal S128x1024 .bf16) (W : Vec Ideal S1024x1024 .bf16) (b : Vec Ideal S1x1024 .f32) (p : Fin 128) (q : Fin 1024) :
    maximumf (addf (matmul dot_S128x1024_S1024x1024_S128x1024_1_0_0_1_n_n none a (shapeCast S1024x1024 W shapeCasts_S1024x1024_S1024x1024 : FVec Ideal S1024x1024 .bf16) (constant S128x1024 .f32 0x00000000#32))
        (broadcastTo S128x1024 (shapeCast S1x1024 b shapeCasts_S1x1024_S1x1024) broadcasts_S1x1024_S128x1024))
      (broadcast S128x1024 (Scalar.ofBits (F := Ideal) .f32 0x00000000#32)) (ix2 p q)
      = relu1 (fun k => a (ix2 p k)) (fun k j => W (ix2 k j)) (fun j => b (ix2 (0 : Fin 1) j)) q := by
  show max (matmul dot_S128x1024_S1024x1024_S128x1024_1_0_0_1_n_n none a (shapeCast S1024x1024 W shapeCasts_S1024x1024_S1024x1024 : FVec Ideal S1024x1024 .bf16) (constant S128x1024 .f32 0x00000000#32) (ix2 p q)
      + broadcastTo S128x1024 (shapeCast S1x1024 b shapeCasts_S1x1024_S1x1024) broadcasts_S1x1024_S128x1024 (ix2 p q)) (Ideal.ofBits .f32 0x00000000#32) = _
  rw [mm_dot, bias_apply, word_zero]
  rfl

/-- The new gate's two products at (p, q), over the rectified projections of the two halves. -/
theorem pay9_apply (v4 v6 : FVec Ideal S128x1024 .bf16) (v45 : Vec Ideal S1024x1024 .bf16) (v48 : Vec Ideal S1x1024 .f32)
    (v55 : Vec Ideal S1024x1024 .bf16) (v58 : Vec Ideal S1x1024 .f32) (v65 v68 : Vec Ideal S1024x1024 .bf16) (p : Fin 128) (q : Fin 1024) :
    k0_pay9 (F := Ideal) v4 v6 v45 v48 v55 v58 v65 v68 (ix2 p q)
      = dot (relu1 (fun k => v4 (ix2 p k)) (fun k j => v45 (ix2 k j)) (fun j => v48 (ix2 (0 : Fin 1) j))) (fun k j => v65 (ix2 k j)) q
        + dot (relu1 (fun k => v6 (ix2 p k)) (fun k j => v55 (ix2 k j)) (fun j => v58 (ix2 (0 : Fin 1) j))) (fun k j => v68 (ix2 k j)) q := by
  unfold k0_pay9
  show matmul dot_S128x1024_S1024x1024_S128x1024_1_0_0_1_n_n none (truncf .bf16 (maximumf (addf (matmul dot_S128x1024_S1024x1024_S128x1024_1_0_0_1_n_n none v4 (shapeCast S1024x1024 v45 shapeCasts_S1024x1024_S1024x1024 : FVec Ideal S1024x1024 .bf16) (constant S128x1024 .f32 0x00000000#32))
          (broadcastTo S128x1024 (shapeCast S1x1024 v48 shapeCasts_S1x1024_S1x1024) broadcasts_S1x1024_S128x1024))
          (broadcast S128x1024 (Scalar.ofBits (F := Ideal) .f32 0x00000000#32))) bitsLt_bf16_f32)
        (shapeCast S1024x1024 v65 shapeCasts_S1024x1024_S1024x1024 : FVec Ideal S1024x1024 .bf16) (constant S128x1024 .f32 0x00000000#32) (ix2 p q)
      + matmul dot_S128x1024_S1024x1024_S128x1024_1_0_0_1_n_n none (truncf .bf16 (maximumf (addf (matmul dot_S128x1024_S1024x1024_S128x1024_1_0_0_1_n_n none v6 (shapeCast S1024x1024 v55 shapeCasts_S1024x1024_S1024x1024 : FVec Ideal S1024x1024 .bf16) (constant S128x1024 .f32 0x00000000#32))
          (broadcastTo S128x1024 (shapeCast S1x1024 v58 shapeCasts_S1x1024_S1x1024) broadcasts_S1x1024_S128x1024))
          (broadcast S128x1024 (Scalar.ofBits (F := Ideal) .f32 0x00000000#32))) bitsLt_bf16_f32)
        (shapeCast S1024x1024 v68 shapeCasts_S1024x1024_S1024x1024 : FVec Ideal S1024x1024 .bf16) (constant S128x1024 .f32 0x00000000#32) (ix2 p q) = _
  rw [mm_dot, mm_dot]
  congr 1
  · exact congrArg (fun f => dot f (fun k j => v65 (ix2 k j)) q) (funext fun k => relu_apply v4 v45 v48 p k)
  · exact congrArg (fun f => dot f (fun k j => v68 (ix2 k j)) q) (funext fun k => relu_apply v6 v55 v58 p k)

/-- The stored value at (p, q), from the body's named values. -/
theorem pay1_apply (v3 : Vec Ideal S128x1024 .f32) (v30 v44 v71 : FVec Ideal S128x1024 .f32) (v72 : Vec Ideal S1x1024 .f32) (p : Fin 128) (q : Fin 1024) :
    k0_pay1 (F := Ideal) v3 v30 v44 v71 v72 (ix2 p q)
      = v30 (ix2 p q) * v3 (ix2 p q) + ((1 - v30 (ix2 p q)) * v44 (ix2 p q)) * Ideal.logistic (v71 (ix2 p q) + v72 (ix2 (0 : Fin 1) q)) := by
  unfold k0_pay1
  show v30 (ix2 p q) * v3 (ix2 p q) + ((Ideal.ofBits .f32 0x3F800000#32 - v30 (ix2 p q)) * v44 (ix2 p q))
      * Ideal.logistic (v71 (ix2 p q) + broadcastTo S128x1024 (shapeCast S1x1024 v72 shapeCasts_S1x1024_S1x1024) broadcasts_S1x1024_S128x1024 (ix2 p q)) = _
  rw [bias_apply, word_one]

/-- THE STORED BLOCK at (p, q) is the cell of row p of the loaded blocks, at column q. -/
theorem block_apply (x0 : Vec Ideal S128x2048 .f32) (x1 : Vec Ideal S128x1024 .f32)
    (x2 x3 : Vec Ideal S1024x1024 .bf16) (x4 : Vec Ideal S1x1024 .f32)
    (x5 x6 : Vec Ideal S1024x1024 .bf16) (x7 : Vec Ideal S1x1024 .f32)
    (x8 x9 : Vec Ideal S1024x1024 .bf16) (x10 : Vec Ideal S1x1024 .f32)
    (x11 : Vec Ideal S1024x1024 .bf16) (x12 : Vec Ideal S1x1024 .f32)
    (x13 : Vec Ideal S1024x1024 .bf16) (x14 : Vec Ideal S1x1024 .f32)
    (x15 x16 : Vec Ideal S1024x1024 .bf16) (x17 : Vec Ideal S1x1024 .f32) (p : Fin 128) (q : Fin 1024) :
    k0_pay1 (F := Ideal) x1 (k0_pay5 x0 x1 x5 x6 x7) (k0_pay8 (k0_pay6 x0 x1 x2 x3 x4) (k0_pay7 x0 x8) x9 x10)
        (k0_pay9 (k0_pay2 x0) (k0_pay4 x0) x11 x12 x13 x14 x15 x16) x17 (ix2 p q)
      = cell (fun k => x0 (ix2 p (lo k))) (fun k => x0 (ix2 p (hi k))) (fun k => x1 (ix2 p k))
          (fun k j => x2 (ix2 k j)) (fun k j => x3 (ix2 k j)) (fun j => x4 (ix2 (0 : Fin 1) j))
          (fun k j => x5 (ix2 k j)) (fun k j => x6 (ix2 k j)) (fun j => x7 (ix2 (0 : Fin 1) j))
          (fun k j => x8 (ix2 k j)) (fun k j => x9 (ix2 k j)) (fun j => x10 (ix2 (0 : Fin 1) j))
          (fun k j => x11 (ix2 k j)) (fun j => x12 (ix2 (0 : Fin 1) j))
          (fun k j => x13 (ix2 k j)) (fun j => x14 (ix2 (0 : Fin 1) j))
          (fun k j => x15 (ix2 k j)) (fun k j => x16 (ix2 k j)) (fun j => x17 (ix2 (0 : Fin 1) j)) q := by
  rw [pay1_apply, pay5_apply, pay8_apply, pay7_apply, pay9_apply]
  simp only [pay6_apply, pay2_apply, pay4_apply]
  rfl

end Cert.KernelIdeal.Block

end
-- ==== Proof.KerHost.lean ====
/-
  The host operations that prepare the kernel's operands, read at an index.

  Before the launch each 2048-row weight matrix is cut into its upper and its lower 1024 rows and every matrix is
  narrowed to the shorter float format, which over the extended reals changes no value; each bias vector is viewed as
  a matrix of one row.
-/
import proofs.«166335_j39178691674857_1_alg».proof.Proof.Gen.KernelIdeal
import proofs.«166335_j39178691674857_1_alg».proof.Proof.Cell
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.ValueIdx Cert.Gru

/-- The upper 1024 rows of a 2048-row matrix, narrowed: at (k, j) the matrix at (k, j). -/
theorem slice_up (W : FVec Ideal S2048x1024 .f32) (k j : Fin 1024) :
    (truncf .bf16 (extractStridedSlice S1024x1024 ![0, 0] W slices_S2048x1024_S1024x1024_0_0) bitsLt_bf16_f32 : FVec Ideal S1024x1024 .bf16) (ix2 k j)
      = W (ix2 (lo k) j) :=
  extractStridedSlice_apply ![0, 0] W slices_S2048x1024_S1024x1024_0_0 (ix2 k j) (ix2 (lo k) j) (fun a => match a with
    | ⟨0, _⟩ => by show k.val = 0 + k.val; omega
    | ⟨1, _⟩ => by show j.val = 0 + j.val; omega)

/-- The lower 1024 rows of a 2048-row matrix, narrowed: at (k, j) the matrix at (1024 + k, j). -/
theorem slice_dn (W : FVec Ideal S2048x1024 .f32) (k j : Fin 1024) :
    (truncf .bf16 (extractStridedSlice S1024x1024 ![1024, 0] W slices_S2048x1024_S1024x1024_1024_0) bitsLt_bf16_f32 : FVec Ideal S1024x1024 .bf16) (ix2 k j)
      = W (ix2 (hi k) j) :=
  extractStridedSlice_apply ![1024, 0] W slices_S2048x1024_S1024x1024_1024_0 (ix2 k j) (ix2 (hi k) j) (fun a => match a with
    | ⟨0, _⟩ => by show 1024 + k.val = 1024 + k.val; omega
    | ⟨1, _⟩ => by show j.val = 0 + j.val; omega)

/-- A bias vector viewed as one row: at (0, j) the vector at j. -/
theorem reshape_row (v : FVec Ideal S1024 .f32) (j : Fin 1024) :
    shapeCast S1x1024 v shapeCasts_S1024_S1x1024 (ix2 (0 : Fin 1) j) = v (ix1 j) :=
  shapeCast_apply v shapeCasts_S1024_S1x1024 _ _ (by
    rw [Shape.rowMajor_val_two, Shape.rowMajor_val_one]
    show j.val = 0 * 1024 + j.val
    omega)

end Cert.KernelIdeal.Whole

end
-- ==== Proof.KerArray.lean ====
/-
  From the blocks to the array.

  Grid point t loads rows 128·t … 128·t + 127 of the input and of the state, and every weight matrix and bias row
  whole (their blocks, read at an index, are the arguments read at the matching index). So the block the point writes
  back is the result array's function of the arguments, read through the block's rectangle; the 128 blocks tile the
  16384 rows (row i lies in block i / 128), hence the array after the run is that function everywhere.
-/
import proofs.«166335_j39178691674857_1_alg».proof.Proof.Gen.KernelIdeal.Value
import proofs.«166335_j39178691674857_1_alg».proof.Proof.KerCell
import proofs.«166335_j39178691674857_1_alg».proof.Proof.KerWindows
import proofs.«166335_j39178691674857_1_alg».proof.Proof.Cell
import Idealize.ShloMosaic.Lib.ValueIdx
import Idealize.ShloMosaic.Lib.Pipeline.Value
import Idealize.ShloMosaic.Lib.StableHlo.Run

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.Gru
open Idealize.ShloMosaic.Pipeline (Dat)

variable (m : (ℓ : Loc nD τ sig) → Buf (Elt Ideal) ℓ) (ρ : Dev nD → PrngReg)

/-! ## The printed index maps, decided over the grid -/

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0 :=
  (by decide +kernel : ∀ t : Fin grid0.N, _)

theorem t_lt (t : Fin cfg0.N) : t.val < 128 := N_0 ▸ t.isLt

/-- The array row of row p of point t's blocks. -/
abbrev row (t : Fin cfg0.N) (p : Fin 128) : Fin 16384 := ⟨t.val * 128 + p.val, by have := t_lt t; have := p.isLt; omega⟩

/-! ## Each window's block at a point, read at an index -/

theorem B0_apply (c : Dev nD) (t : Fin cfg0.N) (p : Fin 128) (k : Fin 2048) :
    iblk m c 0 t (ix2 p k) = (m ((c : Thread nD τ).loc main_arg0)) (ix2 (row t p) k) := by
  show V m c main_arg0 (((cfg0.win 0).blk t).view.emb (ix2 p k)) = _
  rw [V_main_arg0]
  congr 1
  funext a
  apply Fin.ext
  obtain ⟨e0, e1, -, -, -, -⟩ := idx_rows t
  match a with
  | ⟨0, _⟩ => show win0_0.index t (0 : Fin 2) * 128 + 1 * p.val = t.val * 128 + p.val; omega
  | ⟨1, _⟩ => show win0_0.index t (1 : Fin 2) * 2048 + 1 * k.val = k.val; omega

theorem B1_apply (c : Dev nD) (t : Fin cfg0.N) (p : Fin 128) (k : Fin 1024) :
    iblk m c 1 t (ix2 p k) = (m ((c : Thread nD τ).loc main_arg1)) (ix2 (row t p) k) := by
  show V m c main_arg1 (((cfg0.win 1).blk t).view.emb (ix2 p k)) = _
  rw [V_main_arg1]
  congr 1
  funext a
  apply Fin.ext
  obtain ⟨-, -, e0, e1, -, -⟩ := idx_rows t
  match a with
  | ⟨0, _⟩ => show win0_1.index t (0 : Fin 2) * 128 + 1 * p.val = t.val * 128 + p.val; omega
  | ⟨1, _⟩ => show win0_1.index t (1 : Fin 2) * 1024 + 1 * k.val = k.val; omega

/-- Where an element of the output block sits in the result array. -/
theorem emb18 (t : Fin cfg0.N) (p : Fin 128) (q : Fin 1024) :
    ((cfg0.win 18).blk t).view.emb (ix2 p q) = ix2 (row t p) q := by
  funext a
  apply Fin.ext
  obtain ⟨-, -, -, -, e0, e1⟩ := idx_rows t
  match a with
  | ⟨0, _⟩ => show win0_18.index t (0 : Fin 2) * 128 + 1 * p.val = t.val * 128 + p.val; omega
  | ⟨1, _⟩ => show win0_18.index t (1 : Fin 2) * 1024 + 1 * q.val = q.val; omega

/-! ## What a point writes back, and the array after the run -/

theorem hz : (![0, 0] : Fin 2 → Nat) = fun _ => 0 := funext fun a => by fin_cases a <;> rfl

/-- WHAT POINT t WRITES BACK is block t of the result array's function of the arguments. -/
theorem flushed_eq (c : Dev nD) (t : Fin cfg0.N) :
    (dats m 0 c).flushed 18 t = ((cfg0.win 18).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [Value.flushed18]
  unfold out0_18
  rw [View.canon_unit_zero hz]
  simp only [View.ld_unit_zero (S := S128x2048) hz, View.ld_unit_zero (S := S128x1024) hz, View.ld_unit_zero (S := S1024x1024) hz,
    View.ld_unit_zero (S := S1x1024) hz]
  funext y
  obtain ⟨p, q, rfl⟩ : ∃ (p : Fin 128) (q : Fin 1024), y = ix2 p q := ⟨y 0, y 1, eq_ix2 y⟩
  show k0_pay1 (F := Ideal) (iblk m c 1 t) (k0_pay5 (iblk m c 0 t) (iblk m c 1 t) (iblk m c 5 t) (iblk m c 6 t) (iblk m c 7 t))
      (k0_pay8 (k0_pay6 (iblk m c 0 t) (iblk m c 1 t) (iblk m c 2 t) (iblk m c 3 t) (iblk m c 4 t)) (k0_pay7 (iblk m c 0 t) (iblk m c 8 t)) (iblk m c 9 t) (iblk m c 10 t))
      (k0_pay9 (k0_pay2 (iblk m c 0 t)) (k0_pay4 (iblk m c 0 t)) (iblk m c 11 t) (iblk m c 12 t) (iblk m c 13 t) (iblk m c 14 t) (iblk m c 15 t) (iblk m c 16 t))
      (iblk m c 17 t) (ix2 p q)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (((cfg0.win 18).blk t).view.emb (ix2 p q))
  refine (block_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) p q).trans ?_
  rw [emb18]
  simp only [B0_apply, B1_apply, B2_apply, B3_apply, B4_apply, B5_apply, B6_apply, B7_apply, B8_apply, B9_apply, B10_apply,
    B11_apply, B12_apply, B13_apply, B14_apply, B15_apply, B16_apply, B17_apply]
  rfl

/-- An index of the result array is in point t's block iff each coordinate is in the block's range on its axis. -/
theorem mem_blk (t : Fin cfg0.N) (i : S16384x1024.Idx) :
    i ∈ ((cfg0.win 18).blk t).view.set ↔ ∀ a : Fin 2, win0_18.index t a * S128x1024.size a ≤ (i a).val
      ∧ (i a).val < win0_18.index t a * S128x1024.size a + S128x1024.size a := by
  show i ∈ ((View.whole main_v24).slice (win0_18.rect t)).set ↔ _
  rw [View.set_slice_whole, Rect.mem_set_unit]
  exact Iff.rfl

/-- Row i of the result array lies in the block of point i / 128. -/
theorem cover (i : S16384x1024.Idx) :
    ∃ t : Fin cfg0.N, (cfg0.win 18).flush t = true ∧ i ∈ ((cfg0.win 18).blk t).view.set := by
  have hi0 : (i 0).val < 16384 := (i 0).isLt
  have hi1 : (i 1).val < 1024 := (i 1).isLt
  have hN : (i 0).val / 128 < cfg0.N := by rw [show cfg0.N = 128 from N_0]; omega
  refine ⟨⟨(i 0).val / 128, hN⟩, flush0_18 _, ?_⟩
  rw [mem_blk]
  obtain ⟨-, -, -, -, e0, e1⟩ := idx_rows ⟨(i 0).val / 128, hN⟩
  intro a
  match a with
  | ⟨0, _⟩ =>
    show win0_18.index ⟨(i 0).val / 128, hN⟩ (0 : Fin 2) * 128 ≤ (i 0).val ∧ (i 0).val < win0_18.index ⟨(i 0).val / 128, hN⟩ (0 : Fin 2) * 128 + 128
    rw [e0]
    show (i 0).val / 128 * 128 ≤ (i 0).val ∧ (i 0).val < (i 0).val / 128 * 128 + 128
    omega
  | ⟨1, _⟩ =>
    show win0_18.index ⟨(i 0).val / 128, hN⟩ (1 : Fin 2) * 1024 ≤ (i 1).val ∧ (i 1).val < win0_18.index ⟨(i 0).val / 128, hN⟩ (1 : Fin 2) * 1024 + 1024
    omega

/-- THE RESULT ARRAY after the run is its function of the arguments. -/
theorem final (c : Dev nD) : (dats m 0 c).arrAt 18 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (dats m 0 c).arrAt_eq_of_cover 18 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (fun t _ => flushed_eq m c t) cover

/-- The kernel's run: the result array at its function of the arguments, the arguments unchanged. -/
theorem run : θ_run defs (onTc (τ := τ) (main (F := Ideal))) ⟨m, fun _ => 0, ρ⟩ fun r => ∀ c : Dev nD,
      r.2.mem ((c : Thread nD τ).loc main_v24) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Whole

end
-- ==== Proof.RefCell.lean ====
/-
  The reference's result at an index, as the cell of that batch row.

  The reference concatenates [x, s], [x, r ⊙ s] and [e, n] along the column axis and multiplies each by a matrix of
  2048 rows. At row b and column j such a product is the sum over the 2048 contracted columns; its first 1024 terms
  read the left piece against the matrix's upper rows and its last 1024 terms the right piece against the lower rows.
  The logistic function is spelt 1 / (1 + exp(−z)), which is the extended-real logistic function itself; the rectifier
  is a maximum with the zero splat.
-/
import proofs.«166335_j39178691674857_1_alg».proof.Proof.Gen.ReferenceIdeal.Read
import proofs.«166335_j39178691674857_1_alg».proof.Proof.Cell
import Idealize.ShloMosaic.Lib.ValueIdx
import Idealize.ShloMosaic.Lib.Pipeline.Value
import Idealize.ShloMosaic.PureOps.Ideal.Laws

noncomputable section

open scoped BigOperators

namespace Cert.ReferenceIdeal.Row

open Cert.ReferenceIdeal Cert.ReferenceIdeal.Gen Cert.ReferenceIdeal.Read Idealize.ShloMosaic Idealize.ShloMosaic.ValueIdx Cert.Gru

/-! ## Layout operations at an index -/

/-- The semantic half of the input: its first 1024 columns. -/
theorem slice_lo (X : FVec Ideal S16384x2048 .f32) (b : Fin 16384) (k : Fin 1024) :
    val_main_v0 (F := Ideal) X (ix2 b k) = X (ix2 b (lo k)) :=
  (val_main_v0_apply (F := Ideal) X (ix2 b k)).trans (congrArg X (funext fun a => Fin.ext (by match a with | ⟨0, _⟩ => rfl | ⟨1, _⟩ => rfl)))

/-- The neighbour half of the input: its last 1024 columns. -/
theorem slice_hi (X : FVec Ideal S16384x2048 .f32) (b : Fin 16384) (k : Fin 1024) :
    val_main_v1 (F := Ideal) X (ix2 b k) = X (ix2 b (hi k)) :=
  (val_main_v1_apply (F := Ideal) X (ix2 b k)).trans (congrArg X (funext fun a => Fin.ext (by match a with | ⟨0, _⟩ => rfl | ⟨1, _⟩ => rfl)))

/-- A bias vector broadcast to a row and then down the batch reads, at (b, j), the vector at j. -/
theorem bias_row (v : FVec Ideal S1024 .f32) (b : Fin 16384) (j : Fin 1024) :
    (broadcastInDim S16384x1024 ![0, 1] bcast_S1x1024_S16384x1024_0_1 (broadcastInDim S1x1024 ![1] bcast_S1024_S1x1024_1 v)) (ix2 b j) = v (ix1 j) := by
  refine (val_main_v5_apply (F := Ideal) v (ix2 b j)).trans ((val_main_v4_apply (F := Ideal) v _).trans (congrArg v ?_))
  funext a
  apply Fin.ext
  match a with | ⟨0, _⟩ => rfl

/-- A column-wise concatenation read in its left piece. -/
theorem cat_lo (A B : FVec Ideal S16384x1024 .f32) (b : Fin 16384) (k : Fin 1024) :
    (concatenate S16384x2048 1 [⟨S16384x1024, A⟩, ⟨S16384x1024, B⟩] concatenates_S16384x1024_S16384x1024_S16384x2048_d1) (ix2 b (lo k)) = A (ix2 b k) :=
  concatenate_pair_apply_left 1 A B concatenates_S16384x1024_S16384x1024_S16384x2048_d1 (ix2 b (lo k)) rfl (ix2 b k)
    (fun a => match a with | ⟨0, _⟩ => rfl | ⟨1, _⟩ => rfl)

/-- A column-wise concatenation read in its right piece. -/
theorem cat_hi (A B : FVec Ideal S16384x1024 .f32) (b : Fin 16384) (k : Fin 1024) :
    (concatenate S16384x2048 1 [⟨S16384x1024, A⟩, ⟨S16384x1024, B⟩] concatenates_S16384x1024_S16384x1024_S16384x2048_d1) (ix2 b (hi k)) = B (ix2 b k) :=
  concatenate_pair_apply_right 1 A B concatenates_S16384x1024_S16384x1024_S16384x2048_d1 (ix2 b (hi k)) rfl rfl (ix2 b k)
    (fun a ha => match a with | ⟨0, _⟩ => rfl | ⟨1, _⟩ => absurd rfl ha)
    (by show k.val + 1024 = 1024 + k.val; omega)

/-! ## The matrix products at an index -/

/-- A [16384, 2048] × [2048, 1024] product at (b, j). -/
theorem dg2048 (L : FVec Ideal S16384x2048 .f32) (W : FVec Ideal S2048x1024 .f32) (b : Fin 16384) (j : Fin 1024) :
    Host.dotGeneral dot_S16384x2048_S2048x1024_S16384x1024_1_0_0_1_n_n none L W (ix2 b j) = ∑ k : Fin 2048, L (ix2 b k) * W (ix2 k j) := by
  simp only [Host.dotGeneral]
  rw [Ideal.dotGeneral_apply, ← Equiv.sum_comp (ValueIdx.contrEquiv1 dot_S16384x2048_S2048x1024_S16384x1024_1_0_0_1_n_n 2048 rfl rfl).symm]
  refine Finset.sum_congr rfl fun k _ => ?_
  have hk := ValueIdx.contrEquiv1_symm_val dot_S16384x2048_S2048x1024_S16384x1024_1_0_0_1_n_n 2048 rfl rfl k
  have el : dot_S16384x2048_S2048x1024_S16384x1024_1_0_0_1_n_n.lhsIdx (ix2 b j) ((ValueIdx.contrEquiv1 dot_S16384x2048_S2048x1024_S16384x1024_1_0_0_1_n_n 2048 rfl rfl).symm k) = ix2 b k := funext fun a => Fin.ext (by
    match a with
    | ⟨0, _⟩ => exact lhs_main_v3_0 _ _
    | ⟨1, _⟩ => exact (lhs_main_v3_1 _ _).trans hk)
  have er : dot_S16384x2048_S2048x1024_S16384x1024_1_0_0_1_n_n.rhsIdx (ix2 b j) ((ValueIdx.contrEquiv1 dot_S16384x2048_S2048x1024_S16384x1024_1_0_0_1_n_n 2048 rfl rfl).symm k) = ix2 k j := funext fun a => Fin.ext (by
    match a with
    | ⟨0, _⟩ => exact (rhs_main_v3_0 _ _).trans hk
    | ⟨1, _⟩ => exact rhs_main_v3_1 _ _)
  rw [el, er]

/-- A [16384, 1024] × [1024, 1024] product at (b, j), as a row-matrix product of the cell. -/
theorem dg1024 (L : FVec Ideal S16384x1024 .f32) (W : FVec Ideal S1024x1024 .f32) (b : Fin 16384) (j : Fin 1024) :
    Host.dotGeneral dot_S16384x1024_S1024x1024_S16384x1024_1_0_0_1_n_n none L W (ix2 b j) = dot (fun k => L (ix2 b k)) (fun k j => W (ix2 k j)) j := by
  simp only [Host.dotGeneral]
  rw [Ideal.dotGeneral_apply, ← Equiv.sum_comp (ValueIdx.contrEquiv1 dot_S16384x1024_S1024x1024_S16384x1024_1_0_0_1_n_n 1024 rfl rfl).symm]
  refine Finset.sum_congr rfl fun k _ => ?_
  have hk := ValueIdx.contrEquiv1_symm_val dot_S16384x1024_S1024x1024_S16384x1024_1_0_0_1_n_n 1024 rfl rfl k
  have el : dot_S16384x1024_S1024x1024_S16384x1024_1_0_0_1_n_n.lhsIdx (ix2 b j) ((ValueIdx.contrEquiv1 dot_S16384x1024_S1024x1024_S16384x1024_1_0_0_1_n_n 1024 rfl rfl).symm k) = ix2 b k := funext fun a => Fin.ext (by
    match a with
    | ⟨0, _⟩ => exact lhs_main_v30_0 _ _
    | ⟨1, _⟩ => exact (lhs_main_v30_1 _ _).trans hk)
  have er : dot_S16384x1024_S1024x1024_S16384x1024_1_0_0_1_n_n.rhsIdx (ix2 b j) ((ValueIdx.contrEquiv1 dot_S16384x1024_S1024x1024_S16384x1024_1_0_0_1_n_n 1024 rfl rfl).symm k) = ix2 k j := funext fun a => Fin.ext (by
    match a with
    | ⟨0, _⟩ => exact (rhs_main_v30_0 _ _).trans hk
    | ⟨1, _⟩ => exact rhs_main_v30_1 _ _)
  rw [el, er]

/-- THE CUT: a concatenated operand times a matrix of 2048 rows, at (b, j), is the left piece's row times the upper
    1024 rows plus the right piece's row times the lower 1024 rows. -/
theorem catdot (A B : FVec Ideal S16384x1024 .f32) (W : FVec Ideal S2048x1024 .f32) (b : Fin 16384) (j : Fin 1024) :
    Host.dotGeneral dot_S16384x2048_S2048x1024_S16384x1024_1_0_0_1_n_n none (concatenate S16384x2048 1 [⟨S16384x1024, A⟩, ⟨S16384x1024, B⟩] concatenates_S16384x1024_S16384x1024_S16384x2048_d1) W (ix2 b j)
      = dot (fun k => A (ix2 b k)) (fun k j => W (ix2 (lo k) j)) j + dot (fun k => B (ix2 b k)) (fun k j => W (ix2 (hi k) j)) j := by
  rw [dg2048, sum_halves]
  unfold dot
  congr 1
  · exact Finset.sum_congr rfl fun k _ => by rw [cat_lo]
  · exact Finset.sum_congr rfl fun k _ => by rw [cat_hi]

/-! ## The reference's three kinds of layer at an index -/

/-- A gate over a concatenated operand: 1 / (1 + exp(−(…))) is the logistic function of the pre-activation. -/
theorem gate_cat (A B : FVec Ideal S16384x1024 .f32) (W : FVec Ideal S2048x1024 .f32) (v : FVec Ideal S1024 .f32)
    (b : Fin 16384) (j : Fin 1024) :
    Host.divf (broadcastInDim S16384x1024 ![] bcast_S_S16384x1024 (constant (F := Ideal) S_ .f32 0x3F800000#32)) (addf (broadcastInDim S16384x1024 ![] bcast_S_S16384x1024 (constant (F := Ideal) S_ .f32 0x3F800000#32)) (Host.exp (Host.negf (addf (Host.dotGeneral dot_S16384x2048_S2048x1024_S16384x1024_1_0_0_1_n_n none (concatenate S16384x2048 1 [⟨S16384x1024, A⟩, ⟨S16384x1024, B⟩] concatenates_S16384x1024_S16384x1024_S16384x2048_d1) W) (broadcastInDim S16384x1024 ![0, 1] bcast_S1x1024_S16384x1024_0_1 (broadcastInDim S1x1024 ![1] bcast_S1024_S1x1024_1 v)))))) (ix2 b j)
      = Ideal.logistic (pre2 (fun k => A (ix2 b k)) (fun k => B (ix2 b k)) (fun k j => W (ix2 (lo k) j)) (fun k j => W (ix2 (hi k) j))
          (fun j => v (ix1 j)) j) := by
  show Ideal.div (Ideal.ofBits .f32 0x3F800000#32) (Ideal.ofBits .f32 0x3F800000#32
      + Ideal.exp (-(Host.dotGeneral dot_S16384x2048_S2048x1024_S16384x1024_1_0_0_1_n_n none (concatenate S16384x2048 1 [⟨S16384x1024, A⟩, ⟨S16384x1024, B⟩] concatenates_S16384x1024_S16384x1024_S16384x2048_d1) W (ix2 b j) + (broadcastInDim S16384x1024 ![0, 1] bcast_S1x1024_S16384x1024_0_1 (broadcastInDim S1x1024 ![1] bcast_S1024_S1x1024_1 v)) (ix2 b j)))) = _
  rw [catdot, bias_row, word_one]
  rfl

/-- The candidate over a concatenated operand. -/
theorem tanh_cat (A B : FVec Ideal S16384x1024 .f32) (W : FVec Ideal S2048x1024 .f32) (v : FVec Ideal S1024 .f32)
    (b : Fin 16384) (j : Fin 1024) :
    Host.tanh (addf (Host.dotGeneral dot_S16384x2048_S2048x1024_S16384x1024_1_0_0_1_n_n none (concatenate S16384x2048 1 [⟨S16384x1024, A⟩, ⟨S16384x1024, B⟩] concatenates_S16384x1024_S16384x1024_S16384x2048_d1) W) (broadcastInDim S16384x1024 ![0, 1] bcast_S1x1024_S16384x1024_0_1 (broadcastInDim S1x1024 ![1] bcast_S1024_S1x1024_1 v))) (ix2 b j)
      = Ideal.tanh (pre2 (fun k => A (ix2 b k)) (fun k => B (ix2 b k)) (fun k j => W (ix2 (lo k) j)) (fun k j => W (ix2 (hi k) j))
          (fun j => v (ix1 j)) j) := by
  show Ideal.tanh (Host.dotGeneral dot_S16384x2048_S2048x1024_S16384x1024_1_0_0_1_n_n none (concatenate S16384x2048 1 [⟨S16384x1024, A⟩, ⟨S16384x1024, B⟩] concatenates_S16384x1024_S16384x1024_S16384x2048_d1) W (ix2 b j) + (broadcastInDim S16384x1024 ![0, 1] bcast_S1x1024_S16384x1024_0_1 (broadcastInDim S1x1024 ![1] bcast_S1024_S1x1024_1 v)) (ix2 b j)) = _
  rw [catdot, bias_row]
  rfl

/-- A rectified projection. -/
theorem relu_proj (A : FVec Ideal S16384x1024 .f32) (W : FVec Ideal S1024x1024 .f32) (v : FVec Ideal S1024 .f32)
    (b : Fin 16384) (j : Fin 1024) :
    maximumf (addf (Host.dotGeneral dot_S16384x1024_S1024x1024_S16384x1024_1_0_0_1_n_n none A W) (broadcastInDim S16384x1024 ![0, 1] bcast_S1x1024_S16384x1024_0_1 (broadcastInDim S1x1024 ![1] bcast_S1024_S1x1024_1 v))) (broadcastInDim S16384x1024 ![] bcast_S_S16384x1024 (constant (F := Ideal) S_ .f32 0x00000000#32)) (ix2 b j)
      = relu1 (fun k => A (ix2 b k)) (fun k j => W (ix2 k j)) (fun j => v (ix1 j)) j := by
  show max (Host.dotGeneral dot_S16384x1024_S1024x1024_S16384x1024_1_0_0_1_n_n none A W (ix2 b j) + (broadcastInDim S16384x1024 ![0, 1] bcast_S1x1024_S16384x1024_0_1 (broadcastInDim S1x1024 ![1] bcast_S1024_S1x1024_1 v)) (ix2 b j)) (Ideal.ofBits .f32 0x00000000#32) = _
  rw [dg1024, bias_row, word_zero]
  rfl

/-! ## The reference's stages at an index -/

variable (X : FVec Ideal S16384x2048 .f32) (S : FVec Ideal S16384x1024 .f32)
    (Wr : FVec Ideal S2048x1024 .f32) (br : FVec Ideal S1024 .f32) (Wu : FVec Ideal S2048x1024 .f32) (bu : FVec Ideal S1024 .f32)
    (Wc : FVec Ideal S2048x1024 .f32) (bc : FVec Ideal S1024 .f32) (W1 : FVec Ideal S1024x1024 .f32) (b1 : FVec Ideal S1024 .f32)
    (W2 : FVec Ideal S1024x1024 .f32) (b2 : FVec Ideal S1024 .f32) (Wg : FVec Ideal S2048x1024 .f32) (bg : FVec Ideal S1024 .f32)

/-- The reset gate r at (b, j). -/
theorem r_apply (b : Fin 16384) (j : Fin 1024) :
    val_main_v12 (F := Ideal) X S Wr br (ix2 b j) = Ideal.logistic (pre2 (fun k => X (ix2 b (lo k))) (fun k => S (ix2 b k)) (fun k j => Wr (ix2 (lo k) j)) (fun k j => Wr (ix2 (hi k) j)) (fun j => br (ix1 j)) j) := by
  refine (gate_cat (val_main_v0 (F := Ideal) X) S Wr br b j).trans ?_
  simp only [slice_lo]

/-- The update gate u at (b, j). -/
theorem u_apply (b : Fin 16384) (j : Fin 1024) :
    val_main_v22 (F := Ideal) X S Wu bu (ix2 b j) = Ideal.logistic (pre2 (fun k => X (ix2 b (lo k))) (fun k => S (ix2 b k)) (fun k j => Wu (ix2 (lo k) j)) (fun k j => Wu (ix2 (hi k) j)) (fun j => bu (ix1 j)) j) := by
  refine (gate_cat (val_main_v0 (F := Ideal) X) S Wu bu b j).trans ?_
  simp only [slice_lo]

/-- The reset-scaled state r ⊙ s at (b, j). -/
theorem rs_apply (b : Fin 16384) (j : Fin 1024) :
    val_main_v23 (F := Ideal) X S Wr br (ix2 b j) = resetState (fun k => X (ix2 b (lo k))) (fun k => S (ix2 b k)) (fun k j => Wr (ix2 (lo k) j)) (fun k j => Wr (ix2 (hi k) j)) (fun j => br (ix1 j)) j := by
  show val_main_v12 (F := Ideal) X S Wr br (ix2 b j) * S (ix2 b j) = _
  rw [r_apply]
  rfl

/-- The candidate c at (b, j). -/
theorem c_apply (b : Fin 16384) (j : Fin 1024) :
    val_main_v29 (F := Ideal) X S Wr br Wc bc (ix2 b j)
      = Ideal.tanh (pre2 (fun k => X (ix2 b (lo k))) (resetState (fun k => X (ix2 b (lo k))) (fun k => S (ix2 b k)) (fun k j => Wr (ix2 (lo k) j)) (fun k j => Wr (ix2 (hi k) j)) (fun j => br (ix1 j))) (fun k j => Wc (ix2 (lo k) j)) (fun k j => Wc (ix2 (hi k) j)) (fun j => bc (ix1 j)) j) := by
  refine (tanh_cat (val_main_v0 (F := Ideal) X) (val_main_v23 (F := Ideal) X S Wr br) Wc bc b j).trans ?_
  simp only [slice_lo, rs_apply]

/-- The rectified semantic projection e at (b, j). -/
theorem sem_apply (b : Fin 16384) (j : Fin 1024) :
    val_main_v34 (F := Ideal) X W1 b1 (ix2 b j) = relu1 (fun k => X (ix2 b (lo k))) (fun k j => W1 (ix2 k j)) (fun j => b1 (ix1 j)) j := by
  refine (relu_proj (val_main_v0 (F := Ideal) X) W1 b1 b j).trans ?_
  simp only [slice_lo]

/-- The rectified neighbour projection n at (b, j). -/
theorem nbr_apply (b : Fin 16384) (j : Fin 1024) :
    val_main_v39 (F := Ideal) X W2 b2 (ix2 b j) = relu1 (fun k => X (ix2 b (hi k))) (fun k j => W2 (ix2 k j)) (fun j => b2 (ix1 j)) j := by
  refine (relu_proj (val_main_v1 (F := Ideal) X) W2 b2 b j).trans ?_
  simp only [slice_hi]

/-- The new gate g at (b, j). -/
theorem g_apply (b : Fin 16384) (j : Fin 1024) :
    val_main_v50 (F := Ideal) X W1 b1 W2 b2 Wg bg (ix2 b j)
      = Ideal.logistic (pre2 (relu1 (fun k => X (ix2 b (lo k))) (fun k j => W1 (ix2 k j)) (fun j => b1 (ix1 j))) (relu1 (fun k => X (ix2 b (hi k))) (fun k j => W2 (ix2 k j)) (fun j => b2 (ix1 j))) (fun k j => Wg (ix2 (lo k) j)) (fun k j => Wg (ix2 (hi k) j)) (fun j => bg (ix1 j)) j) := by
  refine (gate_cat (val_main_v34 (F := Ideal) X W1 b1) (val_main_v39 (F := Ideal) X W2 b2) Wg bg b j).trans ?_
  simp only [sem_apply, nbr_apply]

/-- THE REFERENCE'S RESULT is the result array's function of the arguments. -/
theorem result_eq : val_main_v56 (F := Ideal) X S Wr br Wu bu Wc bc W1 b1 W2 b2 Wg bg = G X S Wr br Wu bu Wc bc W1 b1 W2 b2 Wg bg := by
  funext i
  obtain ⟨b, j, rfl⟩ : ∃ (b : Fin 16384) (j : Fin 1024), i = ix2 b j := ⟨i 0, i 1, eq_ix2 i⟩
  show val_main_v22 (F := Ideal) X S Wu bu (ix2 b j) * S (ix2 b j)
      + ((Ideal.ofBits .f32 0x3F800000#32 - val_main_v22 (F := Ideal) X S Wu bu (ix2 b j)) * val_main_v29 (F := Ideal) X S Wr br Wc bc (ix2 b j))
        * val_main_v50 (F := Ideal) X W1 b1 W2 b2 Wg bg (ix2 b j) = _
  rw [u_apply, c_apply, g_apply, word_one]
  rfl

end Cert.ReferenceIdeal.Row

end
-- ==== Proof.lean ====
/-
  A gated recurrent cell with a learned neighbour gate, computed blockwise against its plain reference.

  The kernel streams the batch in blocks of 128 rows; for each block it forms the reset gate r and the update gate u
  from the semantic half x of the input row and the state s, the candidate c from x and r ⊙ s, two rectified projections
  of the two input halves, a third gate g from those, and writes u ⊙ s + ((1 − u) ⊙ c) ⊙ g. Where the reference
  concatenates two operands and multiplies by a matrix of 2048 rows, the kernel multiplies each operand by the matching
  1024 rows and adds the two products. On the extended reals a finite sum may be cut in two at any place, so the two
  programs compute one function of the fourteen argument arrays (Cell.lean's G): the kernel's array after its run is G
  (KerCell.lean, KerArray.lean) and the reference's result is G (RefCell.lean). No finiteness of the inputs is used.
  The kernel's frames are its launch and body run over every grid point; the reference's frame is its run with the
  result dropped; the idealized kernel is the kernel's own text read over the extended reals, so nothing is owed for it.
-/
import proofs.«166335_j39178691674857_1_alg».proof.Defs
import proofs.«166335_j39178691674857_1_alg».proof.Proof.Gen.Kernel
import proofs.«166335_j39178691674857_1_alg».proof.Proof.Gen.Kernel.Frame
import proofs.«166335_j39178691674857_1_alg».proof.Proof.Gen.KernelIdeal
import proofs.«166335_j39178691674857_1_alg».proof.Proof.Gen.KernelIdeal.Frame
import proofs.«166335_j39178691674857_1_alg».proof.Proof.Gen.KernelIdeal.Value
import proofs.«166335_j39178691674857_1_alg».proof.Proof.Gen.ReferenceIdeal
import proofs.«166335_j39178691674857_1_alg».proof.Proof.Gen.ReferenceIdeal.Run
import proofs.«166335_j39178691674857_1_alg».proof.Proof.Gen.ReferenceIdeal.Read
import proofs.«166335_j39178691674857_1_alg».proof.Proof.Gen.Pre_finite_inputs
import proofs.«166335_j39178691674857_1_alg».proof.Proof.Cell
import proofs.«166335_j39178691674857_1_alg».proof.Proof.KerArray
import proofs.«166335_j39178691674857_1_alg».proof.Proof.RefCell
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the one function G of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v56_eq, Cert.ReferenceIdeal.Row.result_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
